-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x625000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S5000x128 : Shape := ⟨2, ![5000, 128]⟩
abbrev S1x128 : Shape := ⟨2, ![1, 128]⟩

abbrev nBuf : Space → Nat
  | .hbm => 24
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S_, .f32⟩
  | .hbm, ⟨18, _⟩ => ⟨S100000x128, .f32⟩
  | .hbm, ⟨19, _⟩ => ⟨S625000x1, .i32⟩
  | .hbm, ⟨20, _⟩ => ⟨S100000x128, .f32⟩
  | .hbm, ⟨21, _⟩ => ⟨S128x128, .f32⟩
  | .hbm, ⟨22, _⟩ => ⟨S128x128, .bf16⟩
  | .hbm, ⟨23, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  transposes_S128x128_S128x128_1_0 : S128x128.Transposes [1, 0] S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S1x625000, .i32⟩
  | .hbm, ⟨5, _⟩ => ⟨S625000, .i32⟩
  | .hbm, ⟨6, _⟩ => ⟨S1x625000, .i32⟩
  | .hbm, ⟨7, _⟩ => ⟨S625000, .i32⟩
  | .hbm, ⟨8, _⟩ => ⟨S_, .i32⟩
  | .hbm, ⟨9, _⟩ => ⟨S625000, .i32⟩
  | .hbm, ⟨10, _⟩ => ⟨S625000, .i1⟩
  | .hbm, ⟨11, _⟩ => ⟨S_, .i32⟩
  | .hbm, ⟨12, _⟩ => ⟨S625000, .i32⟩
  | .hbm, ⟨13, _⟩ => ⟨S625000, .i32⟩
  | .hbm, ⟨14, _⟩ => ⟨S625000, .i32⟩
  | .hbm, ⟨15, _⟩ => ⟨S625000x1, .i32⟩
  | .hbm, ⟨16, _⟩ => ⟨S625000x128, .f32⟩
  | .hbm, ⟨17, _⟩ => ⟨S_, .f32⟩
  | .hbm, ⟨18, _⟩ => ⟨S100000x128, .f32⟩
  | .hbm, ⟨19, _⟩ => ⟨S625000x1, .i32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S100000x128, .f32⟩
  | .hbm, ⟨26, _⟩ => ⟨S1x128, .f32⟩
  | .hbm, ⟨27, _⟩ => ⟨S100000x128, .f32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_cst : Ref sig .tc := ⟨.hbm, 29, rfl⟩
abbrev main_call0_v0 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  dot_S100000x128_S128x128_S100000x128_1_1_0_0_n_n_wf : DotDims.WF S100000x128 S128x128 S100000x128 [1] [1] [0] [0] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def dot_S100000x128_S128x128_S100000x128_1_1_0_0_n_n : DotDims S100000x128 S128x128 S100000x128 where
  lhsContracting := [1]
  rhsContracting := [1]
  lhsNonContracting := [0]
  rhsNonContracting := [0]
  lhsBatch := []
  rhsBatch := []
  wf := dot_S100000x128_S128x128_S100000x128_1_1_0_0_n_n_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.BodyAtEntry.lean ====
/-
  What the kernel body stores, read at one entry (p, q) of a block of 5000 rows: from the block of node features
  `xb`, the block of neighbour sums `ab`, the transposed weights `wt` (input feature by output feature) and the bias,

      max ( Σ_l (xb[p, l] + ab[p, l]) · wt[l, q]  +  bias[q] ,  0 ).

  The narrowing of the summed features to sixteen bits is the identity on the extended reals; the product accumulates
  into zeros, so it is the plain sum; the bias is viewed as one row and repeated down the block; the clip is a maximum
  with the zero word.
-/
import proofs.«163099_j77094662963228_1_alg».proof.Proof.Gen.KernelIdeal.Skeleton
import proofs.«163099_j77094662963228_1_alg».proof.Proof.LibMatmulPlain
import Idealize.ShloMosaic.Lib.ValueLayout
import Idealize.ShloMosaic.PureOps.Ideal.Laws

noncomputable section

namespace Cert.GinLayer.Body

open Idealize.ShloMosaic Idealize.ShloMosaic.ValueIdx
open Cert.KernelIdeal Cert.KernelIdeal.Gen

/-- The body's product contracts the left operand's columns with the right operand's rows, with no batch axis. -/
theorem dot_plain : Cert.Gcn.IsPlain (M := 5000) (K := 128) (N := 128) dot_S5000x128_S128x128_S5000x128_1_0_0_1_n_n :=
  ⟨rfl, rfl, rfl, rfl, rfl, rfl⟩

/-- The stored value at entry (p, q). -/
theorem pay_apply (xb ab : Vec Ideal S5000x128 .f32) (wt : Vec Ideal S128x128 .bf16) (bias : Vec Ideal S128 .f32)
    (p : Fin 5000) (q : Fin 128) :
    k0_pay1 (F := Ideal) xb ab wt bias (ix2 p q)
      = max ((∑ l : Fin 128, (xb (ix2 p l) + ab (ix2 p l)) * wt (ix2 l q)) + bias (ix1 q)) 0 := by
  unfold k0_pay1
  rw [maximumf_apply, addf_apply, broadcast_apply, broadcastTo_1b_ab_apply, shapeCast_a_1a_apply,
    shapeCast_self, shapeCast_self,
    Cert.Gcn.matmul_plain_apply dot_S5000x128_S128x128_S5000x128_1_0_0_1_n_n dot_plain]
  show max ((∑ l : Fin 128, (xb (ix2 p l) + ab (ix2 p l)) * wt (ix2 l q)) + bias (ix1 q)) (Ideal.ofBits .f32 0x00000000#32) = _
  rw [Ideal.ofBits_zero_f32]

/-- The same at any index of the block, through its two coordinates. -/
theorem pay_at (xb ab : Vec Ideal S5000x128 .f32) (wt : Vec Ideal S128x128 .bf16) (bias : Vec Ideal S128 .f32)
    (y : S5000x128.Idx) :
    k0_pay1 (F := Ideal) xb ab wt bias y
      = max ((∑ l : Fin 128, (xb (ix2 (y 0) l) + ab (ix2 (y 0) l)) * wt (ix2 l (y 1))) + bias (ix1 (y 1))) 0 :=
  (congrArg (k0_pay1 (F := Ideal) xb ab wt bias) (eq_ix2 (n0 := 5000) (n1 := 128) y)).trans (pay_apply xb ab wt bias (y 0) (y 1))

end Cert.GinLayer.Body

end
-- ==== Proof.LayerSpec.lean ====
/-
  One graph-isomorphism-network layer on the extended reals, as a function of its four arrays: the node features
  `x` (100000 nodes, 128 features each), the neighbour sums `agg` of the same shape, the weight matrix `W` stored
  output feature by input feature, and the bias `b`.  Entry (n, o) of the result is

      max ( Σ_d (x[n, d] + agg[n, d]) · W[o, d]  +  b[o] ,  0 ).

  The neighbour sums enter as an array: nothing here looks at how they were gathered and scattered.
-/
import Idealize.ShloMosaic.Lib.ValueIdx
import Idealize.ShloMosaic.PureOps.Ideal.Laws
import Idealize.ShloMosaic.PureOps.IdealRules

noncomputable section

namespace Cert.GinLayer

open Idealize.ShloMosaic Idealize.ShloMosaic.ValueIdx

/-- Entry (n, o) of the layer: the row of self-plus-neighbour features against row `o` of the weights, plus the bias,
    clipped below at zero. -/
def entry (x agg : FVec Ideal ⟨2, ![100000, 128]⟩ .f32) (W : FVec Ideal ⟨2, ![128, 128]⟩ .f32) (b : FVec Ideal ⟨1, ![128]⟩ .f32)
    (n : Fin 100000) (o : Fin 128) : EReal :=
  max ((∑ d : Fin 128, (x (ix2 n d) + agg (ix2 n d)) * W (ix2 o d)) + b (ix1 o)) 0

/-- The layer's whole result array. -/
def layer (x agg : FVec Ideal ⟨2, ![100000, 128]⟩ .f32) (W : FVec Ideal ⟨2, ![128, 128]⟩ .f32) (b : FVec Ideal ⟨1, ![128]⟩ .f32) :
    FVec Ideal ⟨2, ![100000, 128]⟩ .f32 :=
  fun i => entry x agg W b (i 0) (i 1)

theorem layer_apply (x agg : FVec Ideal ⟨2, ![100000, 128]⟩ .f32) (W : FVec Ideal ⟨2, ![128, 128]⟩ .f32) (b : FVec Ideal ⟨1, ![128]⟩ .f32)
    (n : Fin 100000) (o : Fin 128) : layer x agg W b (ix2 n o) = entry x agg W b n o := rfl

/-- The single-precision word of 1.0 denotes the real number one. -/
theorem word_one : Ideal.ofBits .f32 0x3F800000#32 = 1 := IdealRules.sign_bit.ideal_onePat .f32

end Cert.GinLayer

end
-- ==== Proof.KernelIsLayer.lean ====
/-
  The kernel's result array is the layer of `LayerSpec` applied to the node features, to the neighbour sums the host
  computed before the launch, to the weights and to the bias.

  The grid has twenty points.  Point t fetches rows 5000·t … 5000·t + 4999 of the features and of the neighbour sums,
  the whole transposed weight matrix and the whole bias, and writes back rows 5000·t … 5000·t + 4999 of the result.
  So entry (p, q) of the block point t writes is entry (5000·t + p, q) of the layer: the rows of the two fetched
  blocks are the rows of the arrays shifted by 5000·t, and the transposed weights at (l, q) are the weights at (q, l).
  Every row n of the result lies in the block of point n / 5000, so the twenty blocks cover the array.
-/
import proofs.«163099_j77094662963228_1_alg».proof.Proof.Gen.KernelIdeal.Value
import proofs.«163099_j77094662963228_1_alg».proof.Proof.BodyAtEntry
import proofs.«163099_j77094662963228_1_alg».proof.Proof.LayerSpec
import Idealize.ShloMosaic.Lib.Pipeline.Value
import Idealize.ShloMosaic.Lib.ValueLayout
import Idealize.ShloMosaic.Lib.StableHlo.Run

set_option maxRecDepth 16384

noncomputable section

namespace Cert.GinLayer.Kernel

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the launch finds, and the blocks a point fetches -/

/-- The node features, as the launch finds them. -/
abbrev xarr (c : Dev nD) : Vec Ideal S100000x128 .f32 := V m c main_arg0
/-- The neighbour sums the host computed before the launch. -/
abbrev aggarr (c : Dev nD) : Vec Ideal S100000x128 .f32 := V m c main_v13
/-- The transposed, narrowed weights the host computed before the launch. -/
abbrev wtarr (c : Dev nD) : Vec Ideal S128x128 .bf16 := V m c main_v15
/-- The bias, as the launch finds it. -/
abbrev barr (c : Dev nD) : Vec Ideal S128 .f32 := V m c main_arg3
/-- The weights as given, output feature by input feature. -/
abbrev warr (c : Dev nD) : Vec Ideal S128x128 .f32 := m ((c : Thread nD τ).loc main_arg2)

/-- Point t's block of node features, -/
abbrev xblk (c : Dev nD) (t : Fin cfg0.N) : Vec Ideal S5000x128 .f32 := iblk m c 0 t
/-- of neighbour sums, -/
abbrev ablk (c : Dev nD) (t : Fin cfg0.N) : Vec Ideal S5000x128 .f32 := iblk m c 1 t
/-- of transposed weights (the whole matrix), -/
abbrev wblk (c : Dev nD) (t : Fin cfg0.N) : Vec Ideal S128x128 .bf16 := iblk m c 2 t
/-- and of bias (the whole vector). -/
abbrev bblk (c : Dev nD) (t : Fin cfg0.N) : Vec Ideal S128 .f32 := iblk m c 3 t

theorem hz2 : (![0, 0] : Fin 2 → Nat) = fun _ => 0 := funext fun a => by fin_cases a <;> rfl
theorem hz1 : (![0] : Fin 1 → Nat) = fun _ => 0 := funext fun a => by fin_cases a; rfl

/-- The host transposes the weights and narrows them; on the extended reals the narrowing changes nothing. -/
theorem wtarr_eq (c : Dev nD) :
    wtarr m c = (truncf (F := Ideal) .bf16 (transpose S128x128 [1, 0] (warr m c : FVec Ideal S128x128 .f32)
      Facts₀.transposes_S128x128_S128x128_1_0) Facts₀.bitsLt_bf16_f32 : FVec Ideal S128x128 .bf16) := by
  show (V m c main_v15 : S128x128.Idx → EReal) = _
  dsimp only [Gen.V, Gen.hostOps0]
  after_results

/-- The transposed weights at (l, q) are the weights at (q, l). -/
theorem wtarr_apply (c : Dev nD) (l q : Fin 128) : wtarr m c (ix2 l q) = warr m c (ix2 q l) := by
  rw [wtarr_eq]
  exact transpose_ix2_apply (warr m c : FVec Ideal S128x128 .f32) Facts₀.transposes_S128x128_S128x128_1_0 l q

/-- The printed index maps over the twenty points: the three row-blocked windows sit at block (t, 0), the two whole
    ones at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

/-- Row p of point t's feature block is row 5000·t + p of the features. -/
theorem xblk_apply (c : Dev nD) (t : Fin cfg0.N) (p : Fin 5000) (l : Fin 128) (n : Fin 100000)
    (hn : n.val = t.val * 5000 + p.val) : xblk m c t (ix2 p l) = xarr m c (ix2 n l) := by
  obtain ⟨e0, e1, -⟩ := idx_facts t
  show V m c main_arg0 (((cfg0.win 0).blk t).view.emb (ix2 p l)) = V m c main_arg0 (ix2 n l)
  refine congrArg _ (funext fun a => Fin.ext ?_)
  match a with
  | ⟨0, _⟩ => show win0_0.index t (0 : Fin 2) * 5000 + 1 * p.val = n.val; omega
  | ⟨1, _⟩ => show win0_0.index t (1 : Fin 2) * 128 + 1 * l.val = l.val; omega

/-- Row p of point t's neighbour-sum block is row 5000·t + p of the neighbour sums. -/
theorem ablk_apply (c : Dev nD) (t : Fin cfg0.N) (p : Fin 5000) (l : Fin 128) (n : Fin 100000)
    (hn : n.val = t.val * 5000 + p.val) : ablk m c t (ix2 p l) = aggarr m c (ix2 n l) := by
  obtain ⟨-, -, e0, e1, -⟩ := idx_facts t
  show V m c main_v13 (((cfg0.win 1).blk t).view.emb (ix2 p l)) = V m c main_v13 (ix2 n l)
  refine congrArg _ (funext fun a => Fin.ext ?_)
  match a with
  | ⟨0, _⟩ => show win0_1.index t (0 : Fin 2) * 5000 + 1 * p.val = n.val; omega
  | ⟨1, _⟩ => show win0_1.index t (1 : Fin 2) * 128 + 1 * l.val = l.val; omega

/-- Every point's weight block is the whole transposed matrix: at (l, q) it holds the weights at (o, l) for o = q. -/
theorem wblk_apply (c : Dev nD) (t : Fin cfg0.N) (l q o : Fin 128) (ho : o.val = q.val) :
    wblk m c t (ix2 l q) = warr m c (ix2 o l) := by
  obtain ⟨-, -, -, -, e0, e1, -⟩ := idx_facts t
  have hq : o = q := Fin.ext ho
  rw [hq, ← wtarr_apply m c l q]
  show V m c main_v15 (((cfg0.win 2).blk t).view.emb (ix2 l q)) = V m c main_v15 (ix2 l q)
  refine congrArg _ (funext fun a => Fin.ext ?_)
  match a with
  | ⟨0, _⟩ => show win0_2.index t (0 : Fin 2) * 128 + 1 * l.val = l.val; omega
  | ⟨1, _⟩ => show win0_2.index t (1 : Fin 2) * 128 + 1 * q.val = q.val; omega

/-- Every point's bias block is the whole bias. -/
theorem bblk_apply (c : Dev nD) (t : Fin cfg0.N) (q o : Fin 128) (ho : o.val = q.val) :
    bblk m c t (ix1 q) = barr m c (ix1 o) := by
  obtain ⟨-, -, -, -, -, -, e0, -⟩ := idx_facts t
  have hq : o = q := Fin.ext ho
  rw [hq]
  show V m c main_arg3 (((cfg0.win 3).blk t).view.emb (ix1 q)) = V m c main_arg3 (ix1 q)
  refine congrArg _ (funext fun a => Fin.ext ?_)
  match a with
  | ⟨0, _⟩ => show win0_3.index t (0 : Fin 1) * 128 + 1 * q.val = q.val; omega

/-! ## What a point writes back -/

/-- Point t writes back rows 5000·t … 5000·t + 4999 of the layer. -/
theorem flushed_eq (c : Dev nD) (t : Fin cfg0.N) :
    (dats m 0 c).flushed 4 t
      = ((cfg0.win 4).blk t).view.read (Elt Ideal) (layer (xarr m c) (aggarr m c) (warr m c) (barr m c)) := by
  rw [Cert.KernelIdeal.Value.flushed4]
  unfold out0_4
  rw [View.canon_unit_zero hz2]
  simp only [View.ld_unit_zero (S := S5000x128) hz2, View.ld_unit_zero (S := S128x128) hz2, View.ld_unit_zero (S := S128) hz1]
  obtain ⟨-, -, -, -, -, -, -, e0, e1⟩ := idx_facts t
  funext j
  show k0_pay1 (F := Ideal) (xblk m c t) (ablk m c t) (wblk m c t) (bblk m c t) j
    = layer (xarr m c) (aggarr m c) (warr m c) (barr m c) (((cfg0.win 4).blk t).view.emb j)
  refine (Body.pay_at (xblk m c t) (ablk m c t) (wblk m c t) (bblk m c t) j).trans ?_
  have h0 : ((((cfg0.win 4).blk t).view.emb j) 0).val = t.val * 5000 + (j 0).val := by
    show win0_4.index t (0 : Fin 2) * 5000 + 1 * (j 0).val = _; omega
  have h1 : ((((cfg0.win 4).blk t).view.emb j) 1).val = (j 1).val := by
    show win0_4.index t (1 : Fin 2) * 128 + 1 * (j 1).val = _; omega
  show _ = entry (xarr m c) (aggarr m c) (warr m c) (barr m c) ((((cfg0.win 4).blk t).view.emb j) 0) ((((cfg0.win 4).blk t).view.emb j) 1)
  unfold entry
  rw [bblk_apply m c t (j 1) _ h1]
  refine congrArg (fun s => max (s + _) 0) (Finset.sum_congr rfl fun l _ => ?_)
  rw [xblk_apply m c t (j 0) l _ h0, ablk_apply m c t (j 0) l _ h0, wblk_apply m c t l (j 1) _ h1]

/-! ## The blocks cover the array -/

/-- An index of the array is in point t's block iff each coordinate is in the block's range on its axis. -/
theorem mem_blk (t : Fin cfg0.N) (i : S100000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v16).slice (win0_4.rect t)).set ↔ _
  rw [View.set_slice_whole, Rect.mem_set_unit]
  exact Iff.rfl

/-- Each of the twenty row blocks is some point's. -/
theorem idx_onto : ∀ q0 : Fin 20, ∃ t : Fin cfg0.N, win0_4.index t = ![q0.val, 0] :=
  (by decide +kernel : ∀ q0 : Fin 20, ∃ t : Fin grid0.N, win0_4.index t = ![q0.val, 0])

/-- Row n lies in the block of point n / 5000. -/
theorem cover (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

/-! ## The result array, and the run -/

/-- After the run the result array is the layer of the arguments and the host's neighbour sums. -/
theorem final (c : Dev nD) :
    (dats m 0 c).arrAt 4 cfg0.N
      = layer (m ((c : Thread nD τ).loc main_arg0)) (aggarr m c) (m ((c : Thread nD τ).loc main_arg2)) (m ((c : Thread nD τ).loc main_arg3)) := by
  rw [(dats m 0 c).arrAt_eq_of_cover 4 (layer (xarr m c) (aggarr m c) (warr m c) (barr m c)) (fun t _ => flushed_eq m c t) cover]
  show layer (V m c main_arg0) (aggarr m c) (warr m c) (V m c main_arg3) = _
  rw [V_main_arg0, V_main_arg3]

/-- Every weakly fair execution of the kernel program ends with the result array at the layer and the arguments
    unchanged. -/
theorem run : θ_run defs (onTc (τ := τ) (main (F := Ideal))) ⟨m, fun _ => 0, ρ⟩ fun r => ∀ c : Dev nD,
      r.2.mem ((c : Thread nD τ).loc main_v16)
        = layer (m ((c : Thread nD τ).loc main_arg0)) (aggarr m c) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.GinLayer.Kernel

end
-- ==== Proof.RefIsLayer.lean ====
/-
  The reference program, read one operation at a time at an entry (n, o), is the layer of `LayerSpec` applied to the
  node features, to the reference's own neighbour sums, to the weights and to the bias.  The reference multiplies the
  features by the constant one before adding the neighbour sums; on the extended reals one times anything is that
  thing, infinities included.  Its product contracts the feature axis of both operands, which is the layer's sum as
  written; its bias is laid out along the rows by two broadcasts; its clip is a maximum with a zero array.
-/
import proofs.«163099_j77094662963228_1_alg».proof.Proof.Gen.ReferenceIdeal.Read
import proofs.«163099_j77094662963228_1_alg».proof.Proof.LayerSpec

noncomputable section

namespace Cert.GinLayer.Ref

open Idealize.ShloMosaic Idealize.ShloMosaic.ValueIdx
open Cert.ReferenceIdeal Cert.ReferenceIdeal.Read

/-- The product's left operand is read at (n, k). -/
theorem lidx_eq (n : Fin 100000) (o k : Fin 128) : lidx_main_v17 (ix2 n o) k = ix2 n k :=
  funext fun a => Fin.ext (by match a with | ⟨0, _⟩ => rfl | ⟨1, _⟩ => rfl)

/-- The product's right operand, the weights, is read at (o, k). -/
theorem ridx_eq (n : Fin 100000) (o k : Fin 128) : ridx_main_v17 (ix2 n o) k = ix2 o k :=
  funext fun a => Fin.ext (by match a with | ⟨0, _⟩ => rfl | ⟨1, _⟩ => rfl)

/-- The bias, broadcast to one row and then to every row, is read at o. -/
theorem bidx_eq (n : Fin 100000) (o : Fin 128) : idx_main_v18 (idx_main_v19 (ix2 n o)) = ix1 o :=
  funext fun a => Fin.ext (by match a with | ⟨0, _⟩ => rfl)

/-- The reference's result is the layer over its own neighbour sums. -/
theorem result_eq (x0 : (⟨S100000x128, .f32⟩ : BufTy).Contents (Elt Ideal)) (x1 : (⟨S2x625000, .i32⟩ : BufTy).Contents (Elt Ideal))
    (x2 : (⟨S128x128, .f32⟩ : BufTy).Contents (Elt Ideal)) (x3 : (⟨S128, .f32⟩ : BufTy).Contents (Elt Ideal)) :
    val_main_v21 (F := Ideal) x0 x1 x2 x3 = layer x0 (val_main_v13 (F := Ideal) x0 x1) x2 x3 := by
  funext i
  obtain ⟨n, o, rfl⟩ : ∃ (n : Fin 100000) (o : Fin 128), i = ix2 n o := ⟨i 0, i 1, eq_ix2 i⟩
  rw [val_main_v21_apply, val_main_v20_apply, val_main_v17_apply, val_main_v19_apply, val_main_v18_apply,
    val_main_call0_v0_apply, val_main_call0_cst_apply, bidx_eq, layer_apply]
  simp only [lidx_eq, ridx_eq, val_main_v16_apply, val_main_v15_apply, val_main_v14_apply, val_main_cst_1_apply,
    Ideal.maximumf_def, Ideal.addf_def, Ideal.mulf_def, Ideal.ofBits_def, word_one, Ideal.ofBits_zero_f32, one_mul]
  rfl

end Cert.GinLayer.Ref

end
-- ==== Proof.lean ====
/-
  One graph-isomorphism-network layer, kernel against reference, on the extended reals.

  Both programs first form the neighbour sums on the host, with the same operations in the same order: the source
  indices wrapped once where negative, the source rows gathered, and the gathered rows added into a zero array at
  the destination indices.  The two neighbour-sum arrays are therefore one and the same function of the node features
  and the edge list, and nothing here opens the gather or the scatter-add.

  After that the kernel computes, block of 5000 rows by block, max((x + agg)·Wᵀ + b, 0) with the weights transposed
  on the host beforehand, and the reference computes max((1·x + agg) contracted with W along the input features + b, 0)
  on whole arrays.  Entry by entry both are max(Σ_d (x[n,d] + agg[n,d])·W[o,d] + b[o], 0): one times a feature is the
  feature, the transposed weights at (d, o) are the weights at (o, d), and a change of float format is the identity.
  No step needs the inputs to be finite.

  The kernel programs' frames are the generated ones; the reference's frame is its generated run with the result
  dropped; the idealization rewrote nothing, so there is nothing to preserve.
-/
import proofs.«163099_j77094662963228_1_alg».proof.Defs
import proofs.«163099_j77094662963228_1_alg».proof.Proof.Gen.Kernel
import proofs.«163099_j77094662963228_1_alg».proof.Proof.Gen.Kernel.Skeleton
import proofs.«163099_j77094662963228_1_alg».proof.Proof.Gen.Kernel.Launch
import proofs.«163099_j77094662963228_1_alg».proof.Proof.Gen.Kernel.Points
import proofs.«163099_j77094662963228_1_alg».proof.Proof.Gen.Kernel.Frame
import proofs.«163099_j77094662963228_1_alg».proof.Proof.Gen.KernelIdeal
import proofs.«163099_j77094662963228_1_alg».proof.Proof.Gen.KernelIdeal.Skeleton
import proofs.«163099_j77094662963228_1_alg».proof.Proof.Gen.KernelIdeal.Launch
import proofs.«163099_j77094662963228_1_alg».proof.Proof.Gen.KernelIdeal.Points
import proofs.«163099_j77094662963228_1_alg».proof.Proof.Gen.KernelIdeal.Frame
import proofs.«163099_j77094662963228_1_alg».proof.Proof.Gen.ReferenceIdeal
import proofs.«163099_j77094662963228_1_alg».proof.Proof.Gen.Pre_finite_inputs
import proofs.«163099_j77094662963228_1_alg».proof.Proof.Gen.KernelIdeal.Value
import proofs.«163099_j77094662963228_1_alg».proof.Proof.Gen.ReferenceIdeal.Run
import proofs.«163099_j77094662963228_1_alg».proof.Proof.Gen.ReferenceIdeal.Read
import proofs.«163099_j77094662963228_1_alg».proof.Proof.KernelIsLayer
import proofs.«163099_j77094662963228_1_alg».proof.Proof.RefIsLayer
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem

/-- The neighbour sums the kernel program's host operations leave for the launch are the reference's neighbour sums of
    the same node features and edge list: the same operations, read back in order. -/
theorem agg_eq (m : (ℓ : Loc Cert.KernelIdeal.nD Cert.KernelIdeal.τ Cert.KernelIdeal.sig) → Buf (Elt Ideal) ℓ) (c : Dev Cert.KernelIdeal.nD) :
    Cert.GinLayer.Kernel.aggarr m c
      = Cert.ReferenceIdeal.Read.val_main_v13 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg1)) := by
  show (Cert.KernelIdeal.Gen.V m c Cert.KernelIdeal.main_v13 : Cert.KernelIdeal.S100000x128.Idx → EReal) = _
  dsimp only [Cert.KernelIdeal.Gen.V, Cert.KernelIdeal.Gen.hostOps0]
  after_results
  rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the layer of the same four arrays. -/
theorem algebraic : Cert.algebraic_KernelIdeal_ReferenceIdeal := by
  intro m ρ m' ρ' _ hagree
  refine ⟨_, Cert.GinLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.GinLayer.Ref.result_eq,
    (hagree c).1, (hagree c).2.1, (hagree c).2.2.1, (hagree c).2.2.2, agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
